-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1000x2048 : Shape := ⟨2, ![1000, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : FVec F S1000x2048 .f32) (main_arg2 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 1000#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x2048 : Shape := ⟨2, ![16384, 2048]⟩
abbrev S1000x2048 : Shape := ⟨2, ![1000, 2048]⟩
abbrev S16384 : Shape := ⟨1, ![16384]⟩
abbrev S_ : Shape := ⟨0, ![]⟩
abbrev S1024x2048 : Shape := ⟨2, ![1024, 2048]⟩
abbrev S16384x1 : Shape := ⟨2, ![16384, 1]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 13
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S16384, .i32⟩
  | .hbm, ⟨3, _⟩ => ⟨S_, .i32⟩
  | .hbm, ⟨4, _⟩ => ⟨S_, .f32⟩
  | .hbm, ⟨5, _⟩ => ⟨S1024x2048, .f32⟩
  | .hbm, ⟨6, _⟩ => ⟨S1024x2048, .bf16⟩
  | .hbm, ⟨7, _⟩ => ⟨S16384x1, .i32⟩
  | .hbm, ⟨8, _⟩ => ⟨S16384x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x1, .i32⟩
  | .local _ .vmem, ⟨4, _⟩ => ⟨S1024x1, .i32⟩
  | .local _ .vmem, ⟨5, _⟩ => ⟨S1024x1, .f32⟩
  | .local _ .vmem, ⟨6, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S1000x2048_S1024x2048_0240_000 : S1000x2048.Pads (![0, 0] : Fin 2 → Nat) ![24, 0] ![0, 0] S1024x2048
  h_S_ : 0 < S_.numel
  bitsLt_bf16_f32 : FTy.bits .bf16 < FTy.bits .f32
  shapeCasts_S16384_S16384x1 : S16384.ShapeCasts S16384x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x1024_d1_w32 : S1024x1024.Iotas .tc 32 [1]
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S16384x1_S_d0_1 : S16384x1.ReducesTo [0, 1] S_
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1000x2048 : Shape := ⟨2, ![1000, 2048]⟩
abbrev S16384 : Shape := ⟨1, ![16384]⟩
abbrev S16384x1000 : Shape := ⟨2, ![16384, 1000]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S16384, .i32⟩
  | .hbm, ⟨3, _⟩ => ⟨S16384x1000, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_cst_0 : Ref sig .tc := ⟨.hbm, 46, rfl⟩
abbrev main_v7 : Ref sig .tc := ⟨.hbm, 47, rfl⟩

abbrev nD : Nat := 1
abbrev τ : Topo := Topo.v7x

variable {F : FTy → Type} [FloatOps F]

class Facts₀ : Prop where
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x2048_S1000x2048_S16384x1000_1_1_0_0_n_n_wf : DotDims.WF S16384x2048 S1000x2048 S16384x1000 [1] [1] [0] [0] [] []
  gather_S16384x1000_S16384x1x1_S16384x1_n_1_0_0_1_2_11_wf : GatherDims.WF S16384x1000 S16384x1x1 S16384x1 [] [1] [0] [1] [0] 2 ![1, 1]

variable [Facts₀]

def dot_S16384x2048_S1000x2048_S16384x1000_1_1_0_0_n_n : DotDims S16384x2048 S1000x2048 S16384x1000 where
  lhsContracting := [1]
  rhsContracting := [1]
  lhsNonContracting := [0]
  rhsNonContracting := [0]
  lhsBatch := []
  rhsBatch := []
  wf := dot_S16384x2048_S1000x2048_S16384x1000_1_1_0_0_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.LogSumExp.lean ====
/-
  The row mathematics of a softmax cross-entropy, on the extended reals.

  For a row of real scores s : Fin n → ℝ (n > 0) write lse s = log (∑ c, exp (s c)). Shifting every score by a real
  a before exponentiating and adding a back afterwards does not change it:
      log (∑ c, exp (s c − a)) + a = lse s,
  because ∑ c, exp (s c − a) = exp (−a) · ∑ c, exp (s c) and the sum of exponentials is positive. So the negative
  log-likelihood of class t, lse s − s t, is reached from ANY real shift: the row maximum, or the maximum of the row
  maximum and a finite floor. Two arrangements of it are read here:
    · over a row padded to N ≥ n entries, the padding masked out of the maximum and of the sum and the entry of class
      t picked by an equality mask:  (log (∑_{c<n} exp (S c − m)) + m) − ∑_c [c = t] S c;
    · over the n entries themselves:  −((s t − M) − log (0 + ∑ c, exp (s c − M))).
  Both are lse s − s t for every real m and M. A maximum of finitely many reals taken from −∞ (or from a real) over a
  nonempty index set is a real, which is all that is used of m and M.
-/
import Idealize.ShloMosaic.PureOps.Ideal
import Mathlib.Analysis.SpecialFunctions.Log.Basic

noncomputable section

namespace Cert.LogSumExp

open scoped BigOperators
open Idealize.ShloMosaic

/-- A finite sum of reals read in the extended reals is the real sum. -/
theorem coe_sum {ι : Type*} (u : Finset ι) (f : ι → ℝ) :
    (∑ i ∈ u, ((f i : ℝ) : EReal)) = ((∑ i ∈ u, f i : ℝ) : EReal) := by
  classical
  induction u using Finset.induction_on with
  | empty => simp
  | insert a u ha ih => rw [Finset.sum_insert ha, Finset.sum_insert ha, ih, EReal.coe_add]

/-- log ∑ exp of a row of reals. -/
def lse {n : ℕ} (s : Fin n → ℝ) : ℝ := Real.log (∑ c, Real.exp (s c))

theorem sum_exp_pos {n : ℕ} (hn : 0 < n) (s : Fin n → ℝ) : 0 < ∑ c, Real.exp (s c) :=
  Finset.sum_pos (fun c _ => Real.exp_pos _) ⟨⟨0, hn⟩, Finset.mem_univ _⟩

/-- The shift law: log (∑ exp (s c − a)) + a = lse s for every real a. -/
theorem log_sum_exp_shift {n : ℕ} (hn : 0 < n) (s : Fin n → ℝ) (a : ℝ) :
    Real.log (∑ c, Real.exp (s c - a)) + a = lse s := by
  have e : ∑ c, Real.exp (s c - a) = Real.exp (-a) * ∑ c, Real.exp (s c) := by
    rw [Finset.mul_sum]
    refine Finset.sum_congr rfl fun c _ => ?_
    rw [← Real.exp_add]
    congr 1
    ring
  unfold lse
  rw [e, Real.log_mul (Real.exp_pos _).ne' (sum_exp_pos hn s).ne', Real.log_exp]
  ring

/-- The ideal logarithm of the ideal sum of the ideal exponentials of shifted real scores is the real one. -/
theorem ideal_log_sum_exp {n : ℕ} (hn : 0 < n) (s : Fin n → ℝ) (a : ℝ) :
    Ideal.log (∑ c, Ideal.exp (((s c : ℝ) : EReal) - ((a : ℝ) : EReal)))
      = ((Real.log (∑ c, Real.exp (s c - a)) : ℝ) : EReal) := by
  have h1 : ∀ c, Ideal.exp (((s c : ℝ) : EReal) - ((a : ℝ) : EReal)) = ((Real.exp (s c - a) : ℝ) : EReal) := fun c => by
    rw [← EReal.coe_sub]
    rfl
  rw [Finset.sum_congr rfl fun c _ => h1 c, coe_sum, Ideal.log_coe,
    if_neg (not_le.mpr (sum_exp_pos hn fun c => s c - a))]

/-! ## Masked sums over a padded row -/

/-- A sum over `Fin N` masked to the first `n` entries is the sum over `Fin n`. -/
theorem sum_ite_lt {M : Type*} [AddCommMonoid M] {n N : ℕ} (h : n ≤ N) (g : Fin N → M) :
    (∑ c : Fin N, if c.val < n then g c else 0) = ∑ c : Fin n, g (Fin.castLE h c) := by
  rw [← Finset.sum_filter]
  have e : (Finset.univ.filter fun c : Fin N => c.val < n) = Finset.univ.map (Fin.castLEEmb h) := by
    ext c
    simp only [Finset.mem_filter, Finset.mem_univ, true_and, Finset.mem_map, Fin.castLEEmb_apply]
    exact ⟨fun hc => ⟨⟨c.val, hc⟩, Fin.ext rfl⟩, fun ⟨d, hd⟩ => hd ▸ d.isLt⟩
  rw [e, Finset.sum_map]
  rfl

/-- A sum masked to the one entry whose position is `k`'s is that entry. -/
theorem sum_ite_val_eq {M : Type*} [AddCommMonoid M] {N : ℕ} (g : Fin N → M) (k : Fin N) :
    (∑ c : Fin N, if c.val = k.val then g c else 0) = g k := by
  rw [Finset.sum_eq_single k]
  · rw [if_pos rfl]
  · intro c _ hc
    rw [if_neg fun h => hc (Fin.ext h)]
  · intro h
    exact absurd (Finset.mem_univ k) h

/-! ## The two arrangements -/

/-- The padded, masked arrangement: for every real shift m it is lse s − s t. -/
theorem padded_row {n N : ℕ} (hn : 0 < n) (hnN : n ≤ N) (S : Fin N → EReal) (s : Fin n → ℝ)
    (hS : ∀ c : Fin n, S (Fin.castLE hnN c) = ((s c : ℝ) : EReal)) (t : Fin n) (m : EReal) (hm : ∃ r : ℝ, m = (r : EReal)) :
    (Ideal.log (∑ c : Fin N, if c.val < n then Ideal.exp (S c - m) else 0) + m)
        - (∑ c : Fin N, if c.val = t.val then S c else 0)
      = ((lse s - s t : ℝ) : EReal) := by
  obtain ⟨mr, rfl⟩ := hm
  have et : (∑ c : Fin N, if c.val = t.val then S c else 0) = S (Fin.castLE hnN t) := sum_ite_val_eq S (Fin.castLE hnN t)
  rw [sum_ite_lt hnN, et, hS t]
  rw [Finset.sum_congr rfl fun c _ => by rw [hS c], ideal_log_sum_exp hn s mr, ← EReal.coe_add,
    log_sum_exp_shift hn s mr, ← EReal.coe_sub]

/-- The plain arrangement: for every real shift M it is lse s − s t. -/
theorem plain_row {n : ℕ} (hn : 0 < n) (s : Fin n → ℝ) (t : Fin n) (M : EReal) (hM : ∃ r : ℝ, M = (r : EReal)) :
    -((((s t : ℝ) : EReal) - M) - Ideal.log (0 + ∑ c : Fin n, Ideal.exp (((s c : ℝ) : EReal) - M)))
      = ((lse s - s t : ℝ) : EReal) := by
  obtain ⟨Mr, rfl⟩ := hM
  rw [zero_add, ideal_log_sum_exp hn s Mr, ← EReal.coe_sub, ← EReal.coe_sub, ← EReal.coe_neg,
    ← log_sum_exp_shift hn s Mr]
  congr 1
  ring

/-! ## A maximum of reals is a real -/

/-- The maximum of a real and of −∞ or a real is a real. -/
theorem max_coe_real (x : ℝ) (e : EReal) (he : e = ⊥ ∨ ∃ y : ℝ, e = (y : EReal)) : ∃ r : ℝ, max (x : EReal) e = (r : EReal) := by
  rcases he with rfl | ⟨y, rfl⟩
  · exact ⟨x, max_bot_right _⟩
  · exact ⟨max x y, (EReal.coe_strictMono.monotone.map_max).symm⟩

/-- The maximum, taken from −∞ or from a real, of real entries over a nonempty finite index set is a real. -/
theorem fold_max_real {ι : Type*} (u : Finset ι) (hu : u.Nonempty) (f : ι → EReal) (hf : ∀ c, ∃ r : ℝ, f c = (r : EReal))
    (b : EReal) (hb : b = ⊥ ∨ ∃ y : ℝ, b = (y : EReal)) : ∃ r : ℝ, u.fold max b f = (r : EReal) := by
  classical
  have key : ∀ v : Finset ι, v = ∅ ∨ ∃ r : ℝ, v.fold max b f = (r : EReal) := by
    intro v
    induction v using Finset.induction_on with
    | empty => exact Or.inl rfl
    | insert a v ha ih =>
      refine Or.inr ?_
      rw [Finset.fold_insert ha]
      obtain ⟨x, hx⟩ := hf a
      rw [hx]
      rcases ih with rfl | h
      · rw [Finset.fold_empty]
        exact max_coe_real x b hb
      · exact max_coe_real x _ (Or.inr h)
  rcases key u with rfl | h
  · exact absurd hu Finset.not_nonempty_empty
  · exact h

end Cert.LogSumExp

end
-- ==== Proof.Row.lean ====
/-
  One padded row of the kernel, as a function of its 1024 scores and of the row's class word.

  A row holds 1024 scores S c, of which the first 1000 belong to classes and the last 24 to padding. The kernel takes
  the maximum m over the row with the padding replaced by a finite floor, sums exp (S c − m) over the class entries
  (the padding replaced by 0), takes the logarithm and adds m back, and subtracts the score of the row's class, picked
  by comparing the column number with the class word w:
      rowNll S w = (log (∑_c [c < 1000] exp (S c − m)) + m) − ∑_c [c = w] S c.
  Here the masks are the words the comparisons give (`cmpi` of the column number against 1000, against w) and the
  choices `select`s, as the body computes them. When the class entries are reals s c and 0 ≤ w < 1000 this is
  lse s − s w: the masked sums are sums over the classes, the maximum is a real (every entry it is taken over is one,
  the floor included), and the shift law of the log-sum-exp removes it.
-/
import Idealize.ShloMosaic.Lib.Affine
import Idealize.ShloMosaic.PureOps.Ideal.Laws
import proofs.«400041_j45311904972892_3_alg».proof.Proof.LogSumExp

noncomputable section

namespace Cert.Row

open scoped BigOperators
open Idealize.ShloMosaic Cert.LogSumExp

/-- Column c is a class column: the word of "c < 1000", signed. -/
abbrev classW (c : Fin 1024) : BitVec 1 := IntOp.cmpi .slt (BitVec.ofNat 32 c.val) 1000#32
/-- Column c is the column of class word w. -/
abbrev isW (w : BitVec 32) (c : Fin 1024) : BitVec 1 := IntOp.cmpi .eq (BitVec.ofNat 32 c.val) w

/-- The row maximum with the padding at the floor, taken from −∞. -/
def rowMax (S : Fin 1024 → EReal) : EReal :=
  (Finset.univ : Finset (Fin 1024)).fold max (Ideal.ofBits .f32 0xFF800000#32)
    fun c => Scalar.select (classW c) (S c) (Ideal.ofBits .f32 0xF149F2CA#32)

/-- The row's negative log-likelihood as the body computes it. -/
def rowNll (S : Fin 1024 → EReal) (w : BitVec 32) : EReal :=
  (Ideal.log (∑ c : Fin 1024, Scalar.select (classW c) (Ideal.exp (S c - rowMax S)) (Ideal.ofBits .f32 0x00000000#32))
      + rowMax S)
    - ∑ c : Fin 1024, Scalar.select (isW w c) (S c) (Ideal.ofBits .f32 0x00000000#32)

/-! ## The masks read -/

/-- A small number's 32-bit word reads back as itself, signed. -/
theorem toInt_ofNat_small (n : ℕ) (h : n < 2 ^ 31) : (BitVec.ofNat 32 n).toInt = (n : Int) := by
  have e : (BitVec.ofNat 32 n).toNat = n := by
    rw [BitVec.toNat_ofNat]
    exact Nat.mod_eq_of_lt (by omega)
  rw [BitVec.toInt_eq_toNat_cond, e, if_pos (by omega)]

theorem classW_eq_one (c : Fin 1024) : classW c = 1#1 ↔ c.val < 1000 := by
  have hc := c.isLt
  rw [IntOp.cmpi_slt, toInt_ofNat_small c.val (by omega)]
  have e : (1000#32 : BitVec 32).toInt = 1000 := by decide
  rw [e]
  omega

theorem isW_eq_one (w : BitVec 32) (c : Fin 1024) : isW w c = 1#1 ↔ c.val = w.toNat := by
  have hc := c.isLt
  rw [IntOp.cmpi_eq]
  constructor
  · intro h
    have := congrArg BitVec.toNat h
    rw [BitVec.toNat_ofNat] at this
    omega
  · intro h
    apply BitVec.eq_of_toNat_eq
    rw [BitVec.toNat_ofNat, h]
    exact Nat.mod_eq_of_lt w.isLt

theorem select_classW {α : Type} (c : Fin 1024) (a b : α) :
    Scalar.select (classW c) a b = if c.val < 1000 then a else b := by
  show (if classW c = 1#1 then a else b) = _
  by_cases h : c.val < 1000
  · rw [if_pos h, if_pos ((classW_eq_one c).mpr h)]
  · rw [if_neg h, if_neg fun e => h ((classW_eq_one c).mp e)]

theorem select_isW {α : Type} (w : BitVec 32) (c : Fin 1024) (a b : α) :
    Scalar.select (isW w c) a b = if c.val = w.toNat then a else b := by
  show (if isW w c = 1#1 then a else b) = _
  by_cases h : c.val = w.toNat
  · rw [if_pos h, if_pos ((isW_eq_one w c).mpr h)]
  · rw [if_neg h, if_neg fun e => h ((isW_eq_one w c).mp e)]

/-! ## The literals -/

theorem neg_inf : Ideal.ofBits .f32 0xFF800000#32 = ⊥ := by simp [Ideal.ofBits, Ideal.ieee]

theorem floor_ne_top : Ideal.ofBits .f32 0xF149F2CA#32 ≠ ⊤ := by
  simp [Ideal.ofBits, Ideal.ieee]
  exact_mod_cast EReal.coe_ne_bot _
theorem floor_ne_bot : Ideal.ofBits .f32 0xF149F2CA#32 ≠ ⊥ := by
  simp [Ideal.ofBits, Ideal.ieee]
  exact_mod_cast EReal.coe_ne_top _

/-- The floor is a real number. -/
theorem floor_real : ∃ r : ℝ, Ideal.ofBits .f32 0xF149F2CA#32 = (r : EReal) :=
  ⟨(Ideal.ofBits .f32 0xF149F2CA#32 : EReal).toReal, (EReal.coe_toReal floor_ne_top floor_ne_bot).symm⟩

/-- A nonnegative signed word below 1000 is below 1000 unsigned. -/
theorem toNat_lt_of_range (w : BitVec 32) (h0 : 0 ≤ w.toInt) (h1 : w.toInt < 1000) : w.toNat < 1000 := by
  rw [BitVec.toInt_eq_toNat_cond] at h0 h1
  have := w.isLt
  split at h0 <;> omega

/-! ## The row evaluated -/

/-- With real class entries the row maximum is a real. -/
theorem rowMax_real (S : Fin 1024 → EReal) (s : Fin 1000 → ℝ)
    (hS : ∀ c : Fin 1000, S (Fin.castLE (by decide) c) = ((s c : ℝ) : EReal)) : ∃ r : ℝ, rowMax S = (r : EReal) := by
  unfold rowMax
  refine fold_max_real _ ⟨⟨0, by decide⟩, Finset.mem_univ _⟩ _ (fun c => ?_) _ (Or.inl neg_inf)
  rw [select_classW]
  by_cases h : c.val < 1000
  · rw [if_pos h]
    exact ⟨s ⟨c.val, h⟩, hS ⟨c.val, h⟩⟩
  · rw [if_neg h]
    exact floor_real

/-- THE ROW: with real class entries s and a class word in range, the body's value is lse s − s w. -/
theorem rowNll_eq (S : Fin 1024 → EReal) (s : Fin 1000 → ℝ)
    (hS : ∀ c : Fin 1000, S (Fin.castLE (by decide) c) = ((s c : ℝ) : EReal))
    (w : BitVec 32) (h0 : 0 ≤ w.toInt) (h1 : w.toInt < 1000) :
    rowNll S w = ((lse s - s ⟨w.toNat, toNat_lt_of_range w h0 h1⟩ : ℝ) : EReal) := by
  unfold rowNll
  simp only [select_classW, select_isW, Ideal.ofBits_zero_f32]
  exact padded_row (by decide) (by decide) S s hS ⟨w.toNat, toNat_lt_of_range w h0 h1⟩ (rowMax S) (rowMax_real S s hS)

end Cert.Row

end
-- ==== Proof.LibRowsCols.lean ====
/-
  Rows and columns of a rank-2 vector read at an index, at any extents.

  A vector of `a` entries viewed as an `a × 1` column reads its entry at every `(i, 0)`; a column spread across `b`
  lanes reads, at `(i, j)`, the column's entry `i`. A sum over the lane axis of an `a × b` vector, at row `i`, is the
  sum of that row's entries; over the sublane axis, at lane `j`, the sum of that lane's column. A maximum over the lane
  axis, at row `i`, is the maximum of the row's entries taken from the accumulator's value, in any order.
-/
import Idealize.ShloMosaic.PureOps.Ideal.Laws
import Idealize.ShloMosaic.Lib.Pipeline.Value
import Idealize.ShloMosaic.Lib.ValueIdx

noncomputable section

namespace Idealize.ShloMosaic.RowsCols

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

variable {φ : FTy}

/-- The sum over the lanes of an `[a, b]` vector, at row `i`: the sum of the row. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  show ∑ k : Fin b, src (h.lift (ix1 i) k) = _
  refine Finset.sum_congr rfl fun k _ => congrArg src (funext fun c => Fin.ext ?_)
  match c with
  | ⟨0, _⟩ => rfl
  | ⟨1, _⟩ => rfl

/-- The sum over the sublanes of an `[a, b]` vector, at lane `j`: the sum of the column. -/
theorem sublaneSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  show ∑ k : Fin a, src (h.lift (ix1 j) k) = _
  refine Finset.sum_congr rfl fun k _ => congrArg src (funext fun c => Fin.ext ?_)
  match c with
  | ⟨0, _⟩ => rfl
  | ⟨1, _⟩ => rfl

/-- The maximum over the lanes of an `[a, b]` vector, at row `i`: the maximum of the row, from the accumulator's value. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (src ∘ h.lift (ix1 i)) = _
  refine congrArg (fun g => (Finset.univ : Finset (Fin b)).fold max (Ideal.ofBits φ acc) g)
    (funext fun k => congrArg src (funext fun c => Fin.ext ?_))
  match c with
  | ⟨0, _⟩ => rfl
  | ⟨1, _⟩ => rfl

end Idealize.ShloMosaic.RowsCols

end
-- ==== Proof.KernelRow.lean ====
/-
  The kernel body's stored column at a row, as the row function of the scores.

  The body multiplies its 1024 × 2048 block of features with the 1024 × 2048 padded table along the feature axis, which
  gives a 1024 × 1024 block of scores, and then works row by row: a mask of the class columns (column number below
  1000), the masked row maximum, the masked sum of exponentials, its logarithm plus the maximum, minus the score in the
  column the row's class word names. Read at row r of the stored 1024 × 1 column this is `Row.rowNll` of the row's
  scores and class word; the score at (r, c) is the sum over the features of feature (r, k) times table (c, k).
-/
import proofs.«400041_j45311904972892_3_alg».proof.Proof.Gen.KernelIdeal.Skeleton
import proofs.«400041_j45311904972892_3_alg».proof.Proof.Row
import proofs.«400041_j45311904972892_3_alg».proof.Proof.LibRowsCols
import Idealize.ShloMosaic.Lib.ValueIdx
import Idealize.ShloMosaic.Lib.Pipeline.Value
import Idealize.ShloMosaic.PureOps.Ideal.Laws

noncomputable section

namespace Cert.KernelIdeal.Body

open scoped BigOperators
open Cert.KernelIdeal Cert.KernelIdeal.Gen Idealize.ShloMosaic Idealize.ShloMosaic.ValueIdx Idealize.ShloMosaic.RowsCols Cert.Row

/-! ## The pieces of the body after the product -/

/-- The column number of each entry of the scores block. -/
def cols : IVec S1024x1024 32 := iota .tc S1024x1024 32 [1] iota_S1024x1024_d1_w32

theorem cols_apply (r c : Fin 1024) : cols (ix2 r c) = BitVec.ofNat 32 c.val := by
  unfold cols
  rw [iota_single_apply]

/-- The mask of the class columns. -/
def classMask : IVec S1024x1024 1 := cmpi .slt cols (broadcast S1024x1024 1000#32)

theorem classMask_apply (r c : Fin 1024) : classMask (ix2 r c) = classW c := by
  show IntOp.cmpi .slt (cols (ix2 r c)) 1000#32 = _
  rw [cols_apply]

variable (sc : FVec Ideal S1024x1024 .f32) (tg : IVec S1024x1 32)

/-- The masked row maxima, as a vector. -/
def rowMaxV : FVec Ideal S1024 .f32 :=
  multiReduction .maximumf [1] S1024 (select classMask sc (broadcast S1024x1024 (Scalar.ofBits .f32 0xF149F2CA#32)))
    0xFF800000#32 reduces_S1024x1024_S1024 (.inl rfl) rfl

theorem rowMaxV_apply (r : Fin 1024) : rowMaxV sc (ix1 r) = rowMax fun c => sc (ix2 r c) := by
  unfold rowMaxV rowMax
  refine (laneMax_apply (a := 1024) (b := 1024) (φ := .f32)
    (select classMask sc (broadcast S1024x1024 (Scalar.ofBits .f32 0xF149F2CA#32))) 0xFF800000#32 reduces_S1024x1024_S1024 (.inl rfl) rfl r).trans ?_
  refine congrArg (fun g => (Finset.univ : Finset (Fin 1024)).fold max (Ideal.ofBits .f32 0xFF800000#32) g) (funext fun c => ?_)
  show Scalar.select (classMask (ix2 r c)) (sc (ix2 r c)) (Ideal.ofBits .f32 0xF149F2CA#32) = _
  rw [classMask_apply]

/-- The maxima as a column. -/
def maxCol : FVec Ideal S1024x1 .f32 := shapeCast S1024x1 (rowMaxV sc) shapeCasts_S1024_S1024x1

theorem maxCol_apply (r : Fin 1024) : maxCol sc (ix2 r 0) = rowMax fun c => sc (ix2 r c) := by
  unfold maxCol
  rw [shapeCast_a_a1_apply, rowMaxV_apply]

/-- The masked exponentials of the shifted scores. -/
def expBlock : FVec Ideal S1024x1024 .f32 :=
  select classMask (exp (subf sc (broadcastTo S1024x1024 (maxCol sc) broadcasts_S1024x1_S1024x1024)))
    (broadcast S1024x1024 (Scalar.ofBits .f32 0x00000000#32))

theorem expBlock_apply (r c : Fin 1024) :
    expBlock sc (ix2 r c)
      = Scalar.select (classW c) (Ideal.exp (sc (ix2 r c) - rowMax fun c => sc (ix2 r c))) (Ideal.ofBits .f32 0x00000000#32) := by
  show Scalar.select (classMask (ix2 r c))
      (Ideal.exp (sc (ix2 r c) - broadcastTo S1024x1024 (maxCol sc) broadcasts_S1024x1_S1024x1024 (ix2 r c)))
      (Ideal.ofBits .f32 0x00000000#32) = _
  rw [classMask_apply, broadcastTo_a1_ab_apply, maxCol_apply]

/-- The scores masked to the column each row's class word names. -/
def pickBlock : FVec Ideal S1024x1024 .f32 :=
  select (cmpi .eq cols (broadcastTo S1024x1024 (shapeCast S1024x1 tg shapeCasts_S1024x1_S1024x1) broadcasts_S1024x1_S1024x1024))
    sc (broadcast S1024x1024 (Scalar.ofBits .f32 0x00000000#32))

theorem pickBlock_apply (r c : Fin 1024) :
    pickBlock sc tg (ix2 r c) = Scalar.select (isW (tg (ix2 r 0)) c) (sc (ix2 r c)) (Ideal.ofBits .f32 0x00000000#32) := by
  show Scalar.select (IntOp.cmpi .eq (cols (ix2 r c))
      (broadcastTo S1024x1024 (shapeCast S1024x1 tg shapeCasts_S1024x1_S1024x1) broadcasts_S1024x1_S1024x1024 (ix2 r c)))
      (sc (ix2 r c)) (Ideal.ofBits .f32 0x00000000#32) = _
  rw [cols_apply, broadcastTo_a1_ab_apply, shapeCast_self]

/-- The body after the product: from the scores block and the class words to the stored column. -/
def nllOfScores : FVec Ideal S1024x1 .f32 :=
  subf
    (addf (log (shapeCast S1024x1
        (multiReduction .add [1] S1024 (expBlock sc) 0x00000000#32 reduces_S1024x1024_S1024 (.inl rfl) rfl) shapeCasts_S1024_S1024x1))
      (maxCol sc))
    (shapeCast S1024x1
      (multiReduction .add [1] S1024 (pickBlock sc tg) 0x00000000#32 reduces_S1024x1024_S1024 (.inl rfl) rfl) shapeCasts_S1024_S1024x1)

/-- Row r of the stored column is the row function of row r of the scores and the row's class word. -/
theorem nllOfScores_apply (r : Fin 1024) :
    nllOfScores sc tg (ix2 r 0) = rowNll (fun c => sc (ix2 r c)) (tg (ix2 r 0)) := by
  unfold nllOfScores rowNll
  show (Ideal.log (shapeCast S1024x1 (multiReduction .add [1] S1024 (expBlock sc) 0x00000000#32 reduces_S1024x1024_S1024 (.inl rfl) rfl)
          shapeCasts_S1024_S1024x1 (ix2 r 0)) + maxCol sc (ix2 r 0))
      - shapeCast S1024x1 (multiReduction .add [1] S1024 (pickBlock sc tg) 0x00000000#32 reduces_S1024x1024_S1024 (.inl rfl) rfl)
          shapeCasts_S1024_S1024x1 (ix2 r 0) = _
  have hA : shapeCast S1024x1 (multiReduction .add [1] S1024 (expBlock sc) 0x00000000#32 reduces_S1024x1024_S1024 (.inl rfl) rfl)
        shapeCasts_S1024_S1024x1 (ix2 r 0)
      = ∑ c : Fin 1024, Scalar.select (classW c) (Ideal.exp (sc (ix2 r c) - rowMax fun c => sc (ix2 r c))) (Ideal.ofBits .f32 0x00000000#32) :=
    (shapeCast_a_a1_apply _ shapeCasts_S1024_S1024x1 r 0).trans
      ((laneSum_apply (a := 1024) (b := 1024) (φ := .f32) (expBlock sc) 0x00000000#32 reduces_S1024x1024_S1024 (.inl rfl) rfl r).trans
        (Finset.sum_congr rfl fun c _ => expBlock_apply sc r c))
  have hB : shapeCast S1024x1 (multiReduction .add [1] S1024 (pickBlock sc tg) 0x00000000#32 reduces_S1024x1024_S1024 (.inl rfl) rfl)
        shapeCasts_S1024_S1024x1 (ix2 r 0)
      = ∑ c : Fin 1024, Scalar.select (isW (tg (ix2 r 0)) c) (sc (ix2 r c)) (Ideal.ofBits .f32 0x00000000#32) :=
    (shapeCast_a_a1_apply _ shapeCasts_S1024_S1024x1 r 0).trans
      ((laneSum_apply (a := 1024) (b := 1024) (φ := .f32) (pickBlock sc tg) 0x00000000#32 reduces_S1024x1024_S1024 (.inl rfl) rfl r).trans
        (Finset.sum_congr rfl fun c _ => pickBlock_apply sc tg r c))
  exact congrArg₂ (· - ·) (congrArg₂ (· + ·) (congrArg Ideal.log hA) (maxCol_apply sc r)) hB

/-! ## The product -/

theorem lhs_dot_0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs_dot_1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem rhs_dot_0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs_dot_1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The scores block at (r, c): the sum over the features of feature (r, k) times table (c, k). -/
theorem scores_apply (x : FVec Ideal S1024x2048 .bf16) (a : FVec Ideal S1024x2048 .bf16) (r c : Fin 1024) :
    matmul dot_S1024x2048_S1024x2048_S1024x1024_1_1_0_0_n_n none x a (constant S1024x1024 .f32 0x00000000#32) (ix2 r c)
      = ∑ k : Fin 2048, x (ix2 r k) * a (ix2 c k) := by
  simp only [matmul]
  rw [Ideal.matmul_constant_zero_apply, ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 r c) ((ValueIdx.contrEquiv1 dot_S1024x2048_S1024x2048_S1024x1024_1_1_0_0_n_n 2048 rfl rfl).symm k) = ix2 r k := funext fun b => Fin.ext (by
    match b with
    | ⟨0, _⟩ => exact lhs_dot_0 _ _
    | ⟨1, _⟩ => exact (lhs_dot_1 _ _).trans hk)
  have er : dot_S1024x2048_S1024x2048_S1024x1024_1_1_0_0_n_n.rhsIdx (ix2 r c) ((ValueIdx.contrEquiv1 dot_S1024x2048_S1024x2048_S1024x1024_1_1_0_0_n_n 2048 rfl rfl).symm k) = ix2 c k := funext fun b => Fin.ext (by
    match b with
    | ⟨0, _⟩ => exact rhs_dot_0 _ _
    | ⟨1, _⟩ => exact (rhs_dot_1 _ _).trans hk)
  rw [el, er]

/-! ## The stored column -/

/-- The body's stored value is the row pipeline applied to the product of the (format-changed) loaded blocks. -/
theorem pay_eq (v0 : FVec Ideal S1024x2048 .f32) (v2 : FVec Ideal S1024x2048 .bf16) (v21 : IVec S1024x1 32) :
    k0_pay1 (F := Ideal) v0 v2 v21
      = nllOfScores (matmul dot_S1024x2048_S1024x2048_S1024x1024_1_1_0_0_n_n none (truncf .bf16 v0 bitsLt_bf16_f32)
          (shapeCast S1024x2048 v2 shapeCasts_S1024x2048_S1024x2048) (constant S1024x1024 .f32 0x00000000#32)) v21 := rfl

/-- THE STORED COLUMN at row r: the row function of the scores feature-row r · table-row c and of the class word. -/
theorem pay_apply (v0 : FVec Ideal S1024x2048 .f32) (v2 : FVec Ideal S1024x2048 .bf16) (v21 : IVec S1024x1 32) (r : Fin 1024) :
    k0_pay1 (F := Ideal) v0 v2 v21 (ix2 r 0)
      = rowNll (fun c => ∑ k : Fin 2048, v0 (ix2 r k) * v2 (ix2 c k)) (v21 (ix2 r 0)) := by
  rw [pay_eq, nllOfScores_apply]
  refine congrArg (fun S => rowNll S (v21 (ix2 r 0))) (funext fun c => ?_)
  rw [scores_apply, shapeCast_self]
  rfl

end Cert.KernelIdeal.Body

end
-- ==== Proof.KernelBlocks.lean ====
/-
  What the output column of the region holds after every grid point has written its block back.

  The region's grid has 16 points; point t reads rows 1024·t … 1024·t + 1023 of the feature array and of the class
  column, the whole padded table, and writes rows 1024·t … 1024·t + 1023 of the 16384 × 1 output column. Row r of
  what point t stores is the row function (`Row.rowNll`) of the scores of feature row 1024·t + r against the 1024
  table rows and of class word 1024·t + r. So block t of the array below, read back, is what point t writes, and
  since the sixteen blocks tile the column the column ends holding it:
      nllArr X A T (b, 0) = rowNll (c ↦ ∑_k X (b, k) · A (c, k)) (T (b, 0)).
-/
import proofs.«400041_j45311904972892_3_alg».proof.Proof.Gen.KernelIdeal.Frame
import proofs.«400041_j45311904972892_3_alg».proof.Proof.KernelRow
import Idealize.ShloMosaic.Lib.Pipeline.Value

set_option maxRecDepth 16384

noncomputable section

namespace Cert.KernelIdeal.Arr

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body Cert.Row

variable (m : (ℓ : Loc nD τ sig) → Buf (Elt Ideal) ℓ)

theorem hz : (![0, 0] : Fin 2 → Nat) = fun _ => 0 := funext fun a => by fin_cases a <;> rfl

/-- The row of an index of the output column, as a number below 16384. -/
def rowOf (i : S16384x1.Idx) : Fin 16384 := ⟨(i 0).val, idx2_lt0 i⟩

/-- The output column as one function of the feature array, the padded table and the class column. -/
def nllArr (X : FVec Ideal S16384x2048 .f32) (A : FVec Ideal S1024x2048 .bf16) (T : IVec S16384x1 32) :
    FVec Ideal S16384x1 .f32 :=
  fun i => rowNll (fun c => ∑ k : Fin 2048, X (ix2 (rowOf i) k) * A (ix2 c k)) (T (ix2 (rowOf i) 0))

/-- The stored column at any index of the 1024 × 1 block: the row function at the index's row. -/
theorem pay_at (x0 : FVec Ideal S1024x2048 .f32) (x1 : FVec Ideal S1024x2048 .bf16) (x2 : IVec S1024x1 32) (y : S1024x1.Idx) :
    k0_pay1 (F := Ideal) x0 x1 x2 y
      = rowNll (fun c => ∑ k : Fin 2048, x0 (ix2 (⟨(y 0).val, idx2_lt0 y⟩ : Fin 1024) k) * x1 (ix2 c k))
          (x2 (ix2 (⟨(y 0).val, idx2_lt0 y⟩ : Fin 1024) 0)) := by
  have hy : y = ix2 (⟨(y 0).val, idx2_lt0 y⟩ : Fin 1024) (0 : Fin 1) := by
    funext a
    match a with
    | ⟨0, _⟩ => rfl
    | ⟨1, _⟩ => exact Fin.ext (by have := idx2_lt1 y; show (y 1).val = 0; omega)
  refine (congrArg (k0_pay1 (F := Ideal) x0 x1 x2) hy).trans ?_
  exact pay_apply x0 x1 x2 _

/-- The arrays as the region finds them, and the blocks a point reads, each at its literal type. -/
abbrev xarr (c : Dev nD) : FVec Ideal S16384x2048 .f32 := V m c main_arg0
abbrev aarr (c : Dev nD) : FVec Ideal S1024x2048 .bf16 := V m c main_v1
abbrev tarr (c : Dev nD) : IVec S16384x1 32 := V m c main_v2
abbrev xblk (c : Dev nD) (t : Fin cfg0.N) : FVec Ideal S1024x2048 .f32 := iblk m c 0 t
abbrev ablk (c : Dev nD) (t : Fin cfg0.N) : FVec Ideal S1024x2048 .bf16 := iblk m c 1 t
abbrev tblk (c : Dev nD) (t : Fin cfg0.N) : IVec S1024x1 32 := iblk m c 2 t

/-- The printed index maps, decided over the grid: the feature block and the class block move with the output block
    along the rows, the table's block is the whole table, and the output's block row is the point's number. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 15 :=
  (by decide +kernel : ∀ t : Fin grid0.N, _)

/-- Every block row of the column is some point's. -/
theorem idx_onto : ∀ q : Fin 16, ∃ t : Fin cfg0.N, win0_3.index t = ![q.val, 0] :=
  (by decide +kernel : ∀ q : Fin 16, ∃ t : Fin grid0.N, win0_3.index t = ![q.val, 0])

/-- WHAT POINT t WRITES BACK is block t of `nllArr` of the arrays as the region finds them. -/
theorem flushed_eq (c : Dev nD) (t : Fin cfg0.N) :
    (dats m 0 c).flushed 3 t
      = ((cfg0.win 3).blk t).view.read (Elt Ideal) (nllArr (xarr m c) (aarr m c) (tarr m c)) := by
  show (cfg0.win 3).cut (grid0.coords t) ((dats m 0 c).after 3 t) = _
  rw [after0_3]
  unfold out0_3
  rw [View.canon_unit_zero hz]
  simp only [View.ld_unit_zero (S := S1024x2048) hz, View.ld_unit_zero (S := S1024x1) hz]
  obtain ⟨e0, e1, e2, e3, e4, e5, e6, e7⟩ := idx_facts t
  funext j
  refine (pay_at (xblk m c t) (ablk m c t) (tblk m c t) j).trans ?_
  show _ = nllArr (xarr m c) (aarr m c) (tarr m c) (((cfg0.win 3).blk t).view.emb j)
  unfold nllArr
  have hj : (j 0).val < 1024 := idx2_lt0 j
  -- the feature block's row r is the array's row of the output index
  have h0 : ∀ k : Fin 2048, ((cfg0.win 0).blk t).view.emb (ix2 (⟨(j 0).val, hj⟩ : Fin 1024) k)
      = ix2 (rowOf (((cfg0.win 3).blk t).view.emb j)) k := fun k => by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 2048 + 1 * k.val = k.val; omega
  have h1 : ∀ (cc : Fin 1024) (k : Fin 2048), ((cfg0.win 1).blk t).view.emb (ix2 cc k) = ix2 cc k := fun cc k => by
    funext a; apply Fin.ext
    match a with
    | ⟨0, _⟩ => show win0_1.index t (0 : Fin 2) * 1024 + 1 * cc.val = cc.val; omega
    | ⟨1, _⟩ => show win0_1.index t (1 : Fin 2) * 2048 + 1 * k.val = k.val; omega
  have h2 : ((cfg0.win 2).blk t).view.emb (ix2 (⟨(j 0).val, hj⟩ : Fin 1024) (0 : Fin 1))
      = ix2 (rowOf (((cfg0.win 3).blk t).view.emb j)) (0 : Fin 1) := by
    funext a; apply Fin.ext
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 1 + 1 * 0 = 0; omega
  refine congrArg₂ rowNll (funext fun cc => Finset.sum_congr rfl fun k _ => ?_) ?_
  · show xarr m c (((cfg0.win 0).blk t).view.emb (ix2 (⟨(j 0).val, hj⟩ : Fin 1024) k))
        * aarr m c (((cfg0.win 1).blk t).view.emb (ix2 cc k)) = _
    rw [h0 k, h1 cc k]
  · show tarr m c (((cfg0.win 2).blk t).view.emb (ix2 (⟨(j 0).val, hj⟩ : Fin 1024) (0 : Fin 1))) = _
    rw [h2]

/-- An index of the column is in point t's block iff each coordinate is in the block's range on its axis. -/
theorem mem_blk (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3).slice (win0_3.rect t)).set ↔ _
  rw [View.set_slice_whole, Rect.mem_set_unit]
  exact Iff.rfl

/-- The sixteen blocks tile the column. -/
theorem cover (i : S16384x1.Idx) : ∃ t : Fin cfg0.N, (cfg0.win 3).flush t = true ∧ i ∈ ((cfg0.win 3).blk t).view.set := by
  have hi0 : (i 0).val < 16384 := (i 0).isLt
  have hi1 : (i 1).val < 1 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- THE COLUMN after the region: `nllArr` of the arrays as the region finds them. -/
theorem final (c : Dev nD) :
    (dats m 0 c).arrAt 3 cfg0.N = nllArr (xarr m c) (aarr m c) (tarr m c) :=
  (dats m 0 c).arrAt_eq_of_cover 3 _ (fun t _ => flushed_eq m c t) cover

end Cert.KernelIdeal.Arr

end
-- ==== Proof.KernelHost.lean ====
/-
  The kernel program's host operations around the region.

  Before the region @main pads the 1000 × 2048 table with 24 rows of the value 0 (converted from the integer 0) to
  1024 × 2048 and changes its format (the identity on the extended reals), and views the 16384 class words as a
  16384 × 1 column. So what the region finds is: the feature array as launched; at a class row c < 1000 of the padded
  table, row c of the table as launched; at (b, 0) of the class column, class word b. After the region @main sums the
  16384 × 1 output column from 0 and divides by 16384.
-/
import proofs.«400041_j45311904972892_3_alg».proof.Proof.Gen.KernelIdeal.Frame
import proofs.«400041_j45311904972892_3_alg».proof.Proof.KernelBlocks
import Idealize.ShloMosaic.Lib.Pipeline.Value
import Idealize.ShloMosaic.Lib.KernelVsHost
import Idealize.ShloMosaic.Lib.StableHlo.Run

set_option maxRecDepth 16384

noncomputable section

namespace Cert.KernelIdeal.Host

open scoped BigOperators
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Arr

variable (m : (ℓ : Loc nD τ sig) → Buf (Elt Ideal) ℓ)

/-- The table as launched, at its literal type. -/
abbrev table (c : Dev nD) : FVec Ideal S1000x2048 .f32 := m ((c : Thread nD τ).loc main_arg1)
/-- The class words as launched. -/
abbrev classes (c : Dev nD) : IVec S16384 32 := m ((c : Thread nD τ).loc main_arg2)

/-- The padded, format-changed table the region finds: the operations' term of the table as launched. -/
theorem aarr_eq (c : Dev nD) :
    aarr m c = truncf .bf16
      (pad S1024x2048 ![0, 0] ![24, 0] ![0, 0] (table m c) (sitofp (F := Ideal) .f32 (constantI S_ 32 0#32))
        pads_S1000x2048_S1024x2048_0240_000 h_S_) bitsLt_bf16_f32 := by
  show V m c main_v1 = _
  dsimp only [V, V0]
  simp only [hostOps0, hostOps0_1, hostOps0_2, List.flatten_cons, List.flatten_nil, List.append_nil, List.cons_append,
    List.nil_append]
  after_results
  simp only [TRef.ofBuf, TRef.toBuf, cast_cast, cast_eq]

/-- The class column the region finds: the class words viewed as a column. -/
theorem tarr_eq (c : Dev nD) : tarr m c = shapeCast S16384x1 (classes m c) shapeCasts_S16384_S16384x1 := by
  show V m c main_v2 = _
  dsimp only [V, V0]
  simp only [hostOps0, hostOps0_1, hostOps0_2, List.flatten_cons, List.flatten_nil, List.append_nil, List.cons_append,
    List.nil_append]
  after_results
  rfl

end Cert.KernelIdeal.Host

end
-- ==== Proof.KernelValue.lean ====
/-
  The kernel program's result.

  After the region the output column holds `Arr.nllArr` of the arrays the region found (the sixteen blocks tile it);
  the two host lines after it sum the column from 0 and divide by 16384. So every run of the idealized kernel
  program ends with its result at `meanOf` of that column, and its three arguments as launched.
-/
import proofs.«400041_j45311904972892_3_alg».proof.Proof.KernelHost

set_option maxRecDepth 16384

noncomputable section

namespace Cert.KernelIdeal.Host

open scoped BigOperators
open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Arr

variable (m : (ℓ : Loc nD τ sig) → Buf (Elt Ideal) ℓ) (ρ : Dev nD → PrngReg)

/-- The mean of a 16384 × 1 column as the host computes it: the sum from 0, divided by 16384. -/
def meanOf (y : FVec Ideal S16384x1 .f32) : FVec Ideal S_ .f32 :=
  Host.divf (F := Ideal)
    (Host.reduceAdd (F := Ideal) y (constant (F := Ideal) S_ .f32 0x00000000#32) reducesTo_S16384x1_S_d0_1 h_S_)
    (constant (F := Ideal) S_ .f32 0x46800000#32)

/-- The result buffer after the host lines that follow the region. -/
theorem tail_eq (c : Dev nD) :
    Pipeline.afterTail₀ cfgs (dats m) 0 (V0 m) [hostOps1] c main_v5 = meanOf ((dats m 0 c).arrAt 3 cfg0.N) := by
  unfold Pipeline.afterTail₀
  show StableHlo.after hostOps1 _ (Proc.devRef .tc main_v5) = _
  after_results
  rw [Pipeline.withArrays_arr spec0 launch0.win.arr_inj c _ _ 3]
  rfl

/-- THE RUN: the result at the mean of the column of row values, the arguments as launched. -/
theorem run : θ_run defs (onTc (τ := τ) (main (F := Ideal))) ⟨m, fun _ => 0, ρ⟩ fun r => ∀ c : Dev nD,
      r.2.mem ((c.tc : Thread nD τ).loc main_v5) = meanOf (nllArr (xarr m c) (aarr m c) (tarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans
        ((tail_eq m c).trans (congrArg meanOf (final m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Host

end
-- ==== Proof.LibTakeAlong.lean ====
/-
  A gather along the class axis (jnp.take_along_axis on axis 1) read at one element.

  The operand is an R × C array, the start indices an R × 1 × 1 array of position words, the result an R × 1 column.
  Axis 0 is a batching axis of both (row b of the result reads row b of the operand with the word at (b, 0, 0));
  axis 1 of the operand is collapsed and is the one axis the start index map names. So the result at (b, 0) is the
  operand at row b and at the column the word names, read signed and clamped into [0, C − 1].
-/
import Idealize.ShloMosaic.PureOps.ShapeOps
import Idealize.ShloMosaic.PureOps.Dims
import Idealize.ShloMosaic.Lib.ValueIdx

noncomputable section

namespace Cert.LibTakeAlong

open Idealize.ShloMosaic Idealize.ShloMosaic.ValueIdx

/-- Entries of an R × C array gathered along axis 1 at R position words: result (b, 0) is the array at row b and at
    the clamped position of word (b, 0, 0). -/
theorem takeAlong_apply {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (b : Fin R) (hC : 0 < C) :
    Host.gather d x idx (ix2 b (0 : Fin 1))
      = x (ix2 b (⟨min (idx (ix3 b (0 : Fin 1) (0 : Fin 1))).toInt.toNat (C - 1), by omega⟩ : Fin C)) := by
  obtain ⟨od, cd, obd, sbd, sim, ivd, ss, wf⟩ := d
  simp only at hoff hcoll hob hsb hsim hivd
  subst hoff hcoll hob hsb hsim hivd
  generalize hd : (GatherDims.mk [] [1] [0] [0] [1] 2 ss wf : GatherDims ⟨2, ![R, C]⟩ ⟨3, ![R, 1, 1]⟩ ⟨2, ![R, 1]⟩) = d
  have hcoll : d.collapsedSliceDims = [1] := by subst hd; rfl
  have hob : d.operandBatchingDims = [0] := by subst hd; rfl
  have hsim : d.startIndexMap = [1] := by subst hd; rfl
  have h01 : ¬ ((0 : Fin 2) = 1) := by decide
  have h10 : ¬ ((1 : Fin 2) = 0) := by decide
  have m0 : (0 : Fin 2) ∈ d.operandBatchingDims := by rw [hob]; exact List.mem_singleton.mpr rfl
  have n1 : (1 : Fin 2) ∉ d.operandBatchingDims := by rw [hob]; exact fun h => h10 (List.mem_singleton.mp h)
  have c1 : (1 : Fin 2) ∈ d.collapsedSliceDims := by rw [hcoll]; exact List.mem_singleton.mpr rfl
  have s1 : (1 : Fin 2) ∈ d.startIndexMap := by rw [hsim]; exact List.mem_singleton.mpr rfl
  have k0 : (0 : Fin 2) ∉ d.sKept := fun h => ((GatherDims.mem_sKept _ _).mp h).2 m0
  have k1 : (1 : Fin 2) ∉ d.sKept := fun h => ((GatherDims.mem_sKept _ _).mp h).1 c1
  have h0 : (d.operandIdx (ix2 b (0 : Fin 1)) idx (0 : Fin 2)).val = b.val := by
    show d.start (ix2 b (0 : Fin 1)) idx (0 : Fin 2) + d.batchCoord (ix2 b (0 : Fin 1)) (0 : Fin 2) + d.offCoord (ix2 b (0 : Fin 1)) (0 : Fin 2) = _
    rw [GatherDims.start_batching _ _ _ _ m0, GatherDims.offCoord_eq_zero _ _ _ k0, Nat.zero_add, Nat.add_zero]
    unfold GatherDims.batchCoord
    rw [dif_pos m0]
    subst hd
    rfl
  have h1 : (d.operandIdx (ix2 b (0 : Fin 1)) idx (1 : Fin 2)).val = min (idx (ix3 b (0 : Fin 1) (0 : Fin 1))).toInt.toNat (C - 1) := by
    show d.start (ix2 b (0 : Fin 1)) idx (1 : Fin 2) + d.batchCoord (ix2 b (0 : Fin 1)) (1 : Fin 2) + d.offCoord (ix2 b (0 : Fin 1)) (1 : Fin 2) = _
    rw [GatherDims.batchCoord_eq_zero _ _ _ n1, GatherDims.offCoord_eq_zero _ _ _ k1, Nat.add_zero]
    unfold GatherDims.start
    rw [dif_pos s1, d.slice_collapsed 1 c1]
    have hsi : d.siIdx (ix2 b (0 : Fin 1)) ⟨List.idxOf (1 : Fin 2) d.startIndexMap, List.idxOf_lt_length_iff.2 s1⟩
        = ix3 b (0 : Fin 1) (0 : Fin 1) := by
      subst hd
      funext a
      refine Fin.ext ?_
      match a with
      | ⟨0, _⟩ => rfl
      | ⟨1, _⟩ => rfl
      | ⟨2, _⟩ => rfl
    rw [hsi]
    rfl
  unfold Host.gather
  congr 1
  funext a
  match a with
  | ⟨0, _⟩ => exact Fin.ext h0
  | ⟨1, _⟩ => exact Fin.ext h1

end Cert.LibTakeAlong

end
-- ==== Proof.RefRow.lean ====
/-
  The reference's negated gathered log-probability at a row, as a real number.

  With real features r0 and real table r1 the scores s c = ∑_k r0 (b, k) · r1 (c, k) of row b are real, so the row
  maximum M the log-softmax subtracts is a real, and the log-softmax at (b, c) is (s c − M) − log (0 + ∑ exp (s c' − M)).
  With the class word of row b in [0, 1000) the index normalisation leaves it alone, the range test says "inside", and
  the gather reads column t = the word. So the negated value at row b is −((s t − M) − log (0 + ∑ exp (s c − M))),
  which is lse s − s t for any real M (`LogSumExp.plain_row`).
-/
import proofs.«400041_j45311904972892_3_alg».proof.Proof.RefRead
import proofs.«400041_j45311904972892_3_alg».proof.Proof.LogSumExp
import proofs.«400041_j45311904972892_3_alg».proof.Proof.Row
import proofs.«400041_j45311904972892_3_alg».proof.Proof.LibTakeAlong
import Idealize.ShloMosaic.Lib.Affine
import Idealize.ShloMosaic.Lib.ValueIdx
import Idealize.ShloMosaic.PureOps.Ideal.Laws

noncomputable section

namespace Cert.ReferenceIdeal.Row

open scoped BigOperators
open Cert.ReferenceIdeal Cert.ReferenceIdeal.Gen Cert.ReferenceIdeal.ReadP
open Idealize.ShloMosaic Idealize.ShloMosaic.ValueIdx Cert.LogSumExp

variable (x0 : FVec Ideal S16384x2048 .f32) (x1 : FVec Ideal S1000x2048 .f32) (x2 : IVec S16384 32)
variable (r0 : S16384x2048.Idx → ℝ) (r1 : S1000x2048.Idx → ℝ)

theorem red1 : S16384x1000.Reduces [1] S16384 := by decide
theorem red2 : S16384x1x1.Reduces [2] S16384x1 := by decide

/-- A fold over an axis of extent one is one application. -/
theorem fold_univ_one {α : Type} (op : α → α → α) [Std.Commutative op] [Std.Associative op] (z : α) (n : ℕ) (hn : n = 1) (f : Fin n → α) :
    (Finset.univ : Finset (Fin n)).fold op z f = op (f ⟨0, by omega⟩) z := by
  subst hn
  rw [show (Finset.univ : Finset (Fin 1)) = {(0 : Fin 1)} from rfl, Finset.fold_singleton]
  rfl

/-- The real score of row b against class c. -/
def sc (b : Fin 16384) (c : Fin 1000) : ℝ := ∑ k : Fin 2048, r0 (ix2 b k) * r1 (ix2 c k)

/-- The scores buffer at (b, c) is the real score. -/
theorem v0_apply (h0 : ∀ i, x0 i = ((r0 i : ℝ) : EReal)) (h1 : ∀ i, x1 i = ((r1 i : ℝ) : EReal)) (b : Fin 16384) (c : Fin 1000) :
    val_main_v0 (F := Ideal) x0 x1 (ix2 b c) = ((sc r0 r1 b c : ℝ) : EReal) := by
  rw [val_main_v0_apply]
  unfold sc
  rw [← coe_sum]
  refine Finset.sum_congr rfl fun k _ => ?_
  have el : lidx_main_v0 (ix2 b c) k = ix2 b k := funext fun a => Fin.ext (by match a with | ⟨0, _⟩ => rfl | ⟨1, _⟩ => rfl)
  have er : ridx_main_v0 (ix2 b c) k = ix2 c k := funext fun a => Fin.ext (by match a with | ⟨0, _⟩ => rfl | ⟨1, _⟩ => rfl)
  rw [el, er, h0, h1, EReal.coe_mul]

/-- Every entry of the scores buffer is a real. -/
theorem v0_real (h0 : ∀ i, x0 i = ((r0 i : ℝ) : EReal)) (h1 : ∀ i, x1 i = ((r1 i : ℝ) : EReal)) (i : S16384x1000.Idx) :
    ∃ r : ℝ, val_main_v0 (F := Ideal) x0 x1 i = (r : EReal) := by
  rw [eq_ix2 i]
  exact ⟨_, v0_apply x0 x1 r0 r1 h0 h1 _ _⟩

/-- The row maximum the log-softmax subtracts is a real. -/
theorem rowMax_real (h0 : ∀ i, x0 i = ((r0 i : ℝ) : EReal)) (h1 : ∀ i, x1 i = ((r1 i : ℝ) : EReal)) (b : Fin 16384) :
    ∃ r : ℝ, val_main_call0_v2 (F := Ideal) x0 x1 (ix1 b) = (r : EReal) := by
  rw [val_main_call0_v2_apply, val_main_call0_v1_apply, val_main_call0_cst_0_apply]
  show ∃ r : ℝ, max (Ideal.ofBits .f32 0xFF800000#32) (val_main_call0_v0 (F := Ideal) x0 x1 (ix1 b)) = (r : EReal)
  rw [Cert.Row.neg_inf, max_bot_left]
  unfold val_main_call0_v0
  rw [Host.reduce_eq_fold_single FloatOps.maximumf _ _ reducesTo_S16384x1000_S16384_d1 red1 h_S_]
  refine fold_max_real _ ⟨⟨0, by decide⟩, Finset.mem_univ _⟩ _ (fun k => v0_real x0 x1 r0 r1 h0 h1 _) _ (Or.inl ?_)
  exact Cert.Row.neg_inf

/-- The log-softmax buffer at (b, t), over the row's real scores and the row maximum M. -/
theorem v1_apply (h0 : ∀ i, x0 i = ((r0 i : ℝ) : EReal)) (h1 : ∀ i, x1 i = ((r1 i : ℝ) : EReal)) (b : Fin 16384) (t : Fin 1000) :
    val_main_v1 (F := Ideal) x0 x1 (ix2 b t)
      = (((sc r0 r1 b t : ℝ) : EReal) - val_main_call0_v2 (F := Ideal) x0 x1 (ix1 b))
        - Ideal.log (0 + ∑ c : Fin 1000, Ideal.exp (((sc r0 r1 b c : ℝ) : EReal) - val_main_call0_v2 (F := Ideal) x0 x1 (ix1 b))) := by
  have e4 : ∀ c : Fin 1000, val_main_call0_v4 (F := Ideal) x0 x1 (ix2 b c) = val_main_call0_v2 (F := Ideal) x0 x1 (ix1 b) := fun c => by
    rw [val_main_call0_v4_apply, val_main_call0_v3_apply]
    exact congrArg _ (funext fun a => Fin.ext (by match a with | ⟨0, _⟩ => rfl))
  have e5 : ∀ c : Fin 1000, val_main_call0_v5 (F := Ideal) x0 x1 (ix2 b c)
      = ((sc r0 r1 b c : ℝ) : EReal) - val_main_call0_v2 (F := Ideal) x0 x1 (ix1 b) := fun c => by
    rw [val_main_call0_v5_apply, v0_apply x0 x1 r0 r1 h0 h1, e4, Ideal.subf_def]
  have e10 : val_main_call0_v10 (F := Ideal) x0 x1 (ix2 b t)
      = Ideal.log (0 + ∑ c : Fin 1000, Ideal.exp (((sc r0 r1 b c : ℝ) : EReal) - val_main_call0_v2 (F := Ideal) x0 x1 (ix1 b))) := by
    rw [val_main_call0_v10_apply, val_main_call0_v9_apply, val_main_call0_v8_apply]
    have ei : idx_main_call0_v8 (idx_main_call0_v10 (ix2 b t)) = ix1 b :=
      funext fun a => Fin.ext (by match a with | ⟨0, _⟩ => rfl)
    rw [ei, Ideal.hostUnary_log_def, val_main_call0_v7_apply, val_main_call0_cst_1_apply, Ideal.ofBits_def, Ideal.ofBits_zero_f32]
    refine congrArg (fun z => Ideal.log (0 + z)) (Finset.sum_congr rfl fun c _ => ?_)
    have ei7 : idx_main_call0_v7 (ix1 b) c = ix2 b c :=
      funext fun a => Fin.ext (by match a with | ⟨0, _⟩ => rfl | ⟨1, _⟩ => rfl)
    rw [ei7, val_main_call0_v6_apply, e5, Ideal.hostUnary_exp_def]
  rw [val_main_v1_apply, e5, e10, Ideal.subf_def]

/-! ## The class word: normalisation, range test, gather -/

/-- The normalised index word at (b, 0, 0) is the class word when that is not negative. -/
theorem v5_apply (b : Fin 16384) (hb : 0 ≤ (x2 (ix1 b)).toInt) :
    val_main_call1_v5 (F := Ideal) x2 (ix3 b (0 : Fin 1) (0 : Fin 1)) = x2 (ix1 b) := by
  rw [val_main_call1_v5_apply, val_main_call1_v4_apply, val_main_call1_v1_apply, val_main_v2_apply, val_main_call1_v0_apply,
    val_main_call1_c_apply]
  have ei : idx_main_v2 (idx_main_call1_v5 (ix3 b (0 : Fin 1) (0 : Fin 1))) = ix1 b :=
    funext fun a => Fin.ext (by match a with | ⟨0, _⟩ => show ((b.val * 1 + 0) * 1 + 0) / 1 = b.val; omega)
  rw [ei]
  have hn : ¬ IntOp.cmpi .slt (x2 (ix1 b)) 0#32 = 1#1 := fun h => by
    have := IntOp.cmpi_slt.mp h
    have e0 : (0#32 : BitVec 32).toInt = 0 := by decide
    omega
  show (if IntOp.cmpi .slt (x2 (ix1 b)) 0#32 = 1#1 then _ else _) = _
  rw [if_neg hn]

/-- The range test at (b, 0) says "inside" for a class word in [0, 1000). -/
theorem v12_apply (b : Fin 16384) (hb : 0 ≤ (x2 (ix1 b)).toInt) (hb' : (x2 (ix1 b)).toInt < 1000) :
    val_main_call1_v12 (F := Ideal) x2 (ix2 b (0 : Fin 1)) = 1#1 := by
  unfold val_main_call1_v12
  rw [Host.reduce_eq_fold_single IntOp.andi _ _ reducesTo_S16384x1x1_S16384x1_d2 red2 h_S_]
  refine (fold_univ_one IntOp.andi _ (S16384x1x1.size 2) rfl _).trans ?_
  have el : red2.lift (ix2 b (0 : Fin 1)) (0 : Fin 1) = ix3 b (0 : Fin 1) (0 : Fin 1) :=
    funext fun a => Fin.ext (by match a with | ⟨0, _⟩ => rfl | ⟨1, _⟩ => rfl | ⟨2, _⟩ => rfl)
  show IntOp.andi (val_main_call1_v11 (F := Ideal) x2 (red2.lift (ix2 b (0 : Fin 1)) (0 : Fin 1))) _ = 1#1
  rw [el, val_main_call1_v11_apply, val_main_call1_v7_apply, val_main_call1_v10_apply, v5_apply x2 b hb, val_main_call1_v6_apply,
    val_main_call1_c_2_apply, val_main_call1_v9_apply, val_main_call1_v8_apply, val_main_call1_c_1_apply, val_main_call1_c_3_apply]
  have e0 : (0#32 : BitVec 32).toInt = 0 := by decide
  have e9 : (999#32 : BitVec 32).toInt = 999 := by decide
  rw [IntOp.andi_eq_one, IntOp.andi_eq_one, IntOp.cmpi_sge, IntOp.cmpi_sle, e0, e9]
  exact ⟨⟨hb, by omega⟩, rfl⟩

/-- THE ROW: the negated gathered log-probability of row b is lse s − s t, t the row's class. -/
theorem v5neg_apply (h0 : ∀ i, x0 i = ((r0 i : ℝ) : EReal)) (h1 : ∀ i, x1 i = ((r1 i : ℝ) : EReal)) (b : Fin 16384)
    (hb : 0 ≤ (x2 (ix1 b)).toInt) (hb' : (x2 (ix1 b)).toInt < 1000) :
    val_main_v5 (F := Ideal) x0 x1 x2 (ix1 b)
      = ((lse (sc r0 r1 b) - sc r0 r1 b ⟨(x2 (ix1 b)).toNat, Cert.Row.toNat_lt_of_range _ hb hb'⟩ : ℝ) : EReal) := by
  have hlt := Cert.Row.toNat_lt_of_range _ hb hb'
  rw [val_main_v5_apply, val_main_v4_apply]
  have ei : idx_main_v4 (ix1 b) = ix2 b (0 : Fin 1) :=
    funext fun a => Fin.ext (by match a with | ⟨0, _⟩ => show b.val / 1 = b.val; omega | ⟨1, _⟩ => rfl)
  rw [ei, val_main_v3_apply, v12_apply x2 b hb hb', select_one]
  have hg : val_main_call1_v13 (F := Ideal) x0 x1 x2 (ix2 b (0 : Fin 1))
      = val_main_v1 (F := Ideal) x0 x1 (ix2 b (⟨(x2 (ix1 b)).toNat, hlt⟩ : Fin 1000)) := by
    unfold val_main_call1_v13
    refine (Cert.LibTakeAlong.takeAlong_apply gather_S16384x1000_S16384x1x1_S16384x1_n_1_0_0_1_2_11 rfl rfl rfl rfl rfl rfl
      (val_main_v1 (F := Ideal) x0 x1) (val_main_call1_v5 (F := Ideal) x2) b (by decide)).trans
      (congrArg (fun t : Fin 1000 => val_main_v1 (F := Ideal) x0 x1 (ix2 b t)) (Fin.ext ?_))
    show min (val_main_call1_v5 (F := Ideal) x2 (ix3 b (0 : Fin 1) (0 : Fin 1))).toInt.toNat (1000 - 1) = (x2 (ix1 b)).toNat
    rw [v5_apply x2 b hb]
    have e : (x2 (ix1 b)).toInt = ((x2 (ix1 b)).toNat : Int) := by
      rw [BitVec.toInt_eq_toNat_cond]
      have := (x2 (ix1 b)).isLt
      split <;> omega
    rw [e, Int.toNat_natCast]
    omega
  rw [hg, v1_apply x0 x1 r0 r1 h0 h1]
  show -(_) = _
  exact plain_row (by decide) (sc r0 r1 b) _ _ (rowMax_real x0 x1 r0 r1 h0 h1 b)

end Cert.ReferenceIdeal.Row

end
-- ==== Proof.PreDecode.lean ====
/-
  What the precondition says, entry by entry.

  The precondition is the conjunction of four "for all entries" facts: every feature entry and every table entry has
  absolute value below +∞, and every class word is at least 0 and below 1000, signed. On the extended reals an entry
  whose absolute value max x (−x) is below +∞ is neither infinity, so it is a real number; and a class word between 0
  and 1000 names one of the 1000 classes.
-/
import proofs.«400041_j45311904972892_3_alg».proof.Pre_finite_inputs
import proofs.«400041_j45311904972892_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreDecode

open Idealize.ShloMosaic Cert.Pre_finite_inputs

instance : Subsingleton S_.Idx := ⟨fun a b => funext fun d => d.elim0⟩

theorem pos_inf : Ideal.ofBits .f32 0x7F800000#32 = ⊤ := by simp [Ideal.ofBits, Ideal.ieee]

/-- An extended real whose absolute value compares below +∞ is a real. -/
theorem real_of_abs_lt (x : EReal)
    (h : FloatOps.cmpf (F := Ideal) .olt (FloatOps.hostAbsf (F := Ideal) (φ := .f32) x) (Ideal.ofBits .f32 0x7F800000#32) = 1#1) :
    ∃ r : ℝ, x = (r : EReal) := by
  have hlt : max x (-x) < (⊤ : EReal) := by
    rw [pos_inf] at h
    by_contra hc
    have : Ideal.cmp .olt (max x (-x)) ⊤ = 0#1 := by
      unfold Ideal.cmp
      simp only [hc, decide_false]
      rfl
    rw [show FloatOps.cmpf (F := Ideal) .olt (FloatOps.hostAbsf (F := Ideal) (φ := .f32) x) ⊤ = Ideal.cmp .olt (max x (-x)) ⊤ from rfl, this] at h
    exact absurd h (by decide)
  induction x using EReal.rec with
  | bot => exact absurd hlt (by simp)
  | coe r => exact ⟨r, rfl⟩
  | top => exact absurd hlt (by simp)

/-- THE PRECONDITION, READ: every feature and table entry is a real, every class word is in [0, 1000). -/
theorem decode (x0 : FVec Ideal S16384x2048 .f32) (x1 : FVec Ideal S1000x2048 .f32) (x2 : IVec S16384 32)
    (h : fn (F := Ideal) x0 x1 x2 = fun _ => 1#1) :
    (∀ i, ∃ r : ℝ, x0 i = (r : EReal)) ∧ (∀ i, ∃ r : ℝ, x1 i = (r : EReal))
      ∧ ∀ i, 0 ≤ (x2 i).toInt ∧ (x2 i).toInt < 1000 := by
  have e := congrFun h ValueIdx.ix0
  dsimp only [fn, fn_part1] at e
  simp only [andi] at e
  rw [IntOp.andi_eq_one, IntOp.andi_eq_one, IntOp.andi_eq_one] at e
  obtain ⟨⟨⟨e0, e1⟩, e2⟩, e3⟩ := e
  refine ⟨fun i => ?_, fun i => ?_, fun i => ⟨?_, ?_⟩⟩
  · exact real_of_abs_lt (x0 i) (Host.reduce_andi_all _ _ _ _ _ e0 i)
  · exact real_of_abs_lt (x1 i) (Host.reduce_andi_all _ _ _ _ _ e1 i)
  · have := IntOp.cmpi_sge.mp (Host.reduce_andi_all _ _ _ _ _ e2 i)
    exact this
  · have := IntOp.cmpi_slt.mp (Host.reduce_andi_all _ _ _ _ _ e3 i)
    exact this

end Cert.PreDecode

end
-- ==== Proof.LibSumIdx.lean ====
/-
  Sums over a rank-1 and a rank-3 index set as iterated sums over the coordinates: the index set of a shape
  `[n]` is `Fin n`, that of `[n0, n1, n2]` is `Fin n0 × Fin n1 × Fin n2`, so a sum over all indices of an array
  is the sum over its first coordinate of the sum over its second of the sum over its third. Stated for any
  additive commutative monoid; the rank-2 case is the library's `ValueIdx.sum_idx2`.
-/
import Idealize.ShloMosaic.Lib.ValueIdx

noncomputable section

open scoped BigOperators

namespace Cert.LibSumIdx

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, outermost first. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx

end
-- ==== Proof.Bridge.lean ====
/-
  The two programs' results are one number.

  Under the precondition every feature and table entry is a real (r0, r1) and every class word is a class. For row b
  write s c = ∑_k r0 (b, k) · r1 (c, k) and t for the class of row b. The kernel's output column holds at (b, 0) the
  row function of the padded scores (padding masked) and of the class word, which is lse s − s t (`Row.rowNll_eq`:
  only class columns enter it, and there the padded table is the table); the reference's negated gathered column holds
  at b the same number (`ReferenceIdeal.Row.v5neg_apply`). Both programs then sum their 16384 entries from 0 and divide
  by 16384: the sums run over the index sets of a 16384 × 1 column and of a 16384-vector, both in bijection with the
  rows, so they are equal term by term.
-/
import proofs.«400041_j45311904972892_3_alg».proof.Proof.KernelValue
import proofs.«400041_j45311904972892_3_alg».proof.Proof.RefRow
import proofs.«400041_j45311904972892_3_alg».proof.Proof.PreDecode
import proofs.«400041_j45311904972892_3_alg».proof.Proof.LibSumIdx
import Idealize.ShloMosaic.Lib.KernelVsHost

set_option maxRecDepth 16384

noncomputable section

namespace Cert.Bridge

open scoped BigOperators
open Idealize.ShloMosaic Idealize.ShloMosaic.ValueIdx Cert.LogSumExp
open Cert.KernelIdeal.Arr Cert.KernelIdeal.Host

abbrev SX : Shape := ⟨2, ![16384, 2048]⟩
abbrev SA : Shape := ⟨2, ![1000, 2048]⟩
abbrev ST : Shape := ⟨1, ![16384]⟩

variable (x0 : FVec Ideal SX .f32) (x1 : FVec Ideal SA .f32) (x2 : IVec ST 32)
variable (r0 : SX.Idx → ℝ) (r1 : SA.Idx → ℝ)

/-- The padded table as the kernel program builds it. -/
def padded : FVec Ideal Cert.KernelIdeal.S1024x2048 .bf16 :=
  truncf .bf16
    (pad Cert.KernelIdeal.S1024x2048 ![0, 0] ![24, 0] ![0, 0] x1 (sitofp (F := Ideal) .f32 (constantI Cert.KernelIdeal.S_ 32 0#32))
      Cert.KernelIdeal.Gen.pads_S1000x2048_S1024x2048_0240_000 Cert.KernelIdeal.Gen.h_S_) Cert.KernelIdeal.Gen.bitsLt_bf16_f32

/-- At a class row the padded table is the table. -/
theorem padded_apply (c : Fin 1000) (k : Fin 2048) :
    padded x1 (ix2 (Fin.castLE (by decide : 1000 ≤ 1024) c) k) = x1 (ix2 c k) := by
  unfold padded
  show pad Cert.KernelIdeal.S1024x2048 ![0, 0] ![24, 0] ![0, 0] x1 (sitofp (F := Ideal) .f32 (constantI Cert.KernelIdeal.S_ 32 0#32))
      Cert.KernelIdeal.Gen.pads_S1000x2048_S1024x2048_0240_000 Cert.KernelIdeal.Gen.h_S_ (ix2 (Fin.castLE (by decide : 1000 ≤ 1024) c) k) = _
  refine pad_apply_of_inside ![0, 0] ![24, 0] ![0, 0] x1 _ Cert.KernelIdeal.Gen.pads_S1000x2048_S1024x2048_0240_000 Cert.KernelIdeal.Gen.h_S_
    (ix2 (Fin.castLE (by decide : 1000 ≤ 1024) c) k) (ix2 c k) fun a => ?_
  match a with
  | ⟨0, _⟩ => show c.val = 0 + c.val * (0 + 1); omega
  | ⟨1, _⟩ => show k.val = 0 + k.val * (0 + 1); omega

/-- The class column. -/
def column : IVec Cert.KernelIdeal.S16384x1 32 :=
  shapeCast Cert.KernelIdeal.S16384x1 x2 Cert.KernelIdeal.Gen.shapeCasts_S16384_S16384x1

theorem column_apply (b : Fin 16384) : column x2 (ix2 b (0 : Fin 1)) = x2 (ix1 b) := by
  unfold column
  exact Idealize.ShloMosaic.RowsCols.shapeCast_a_a1_apply x2 _ b 0

/-- THE KERNEL'S COLUMN at row b: lse s − s t. -/
theorem kernel_entry (h0 : ∀ i, x0 i = ((r0 i : ℝ) : EReal)) (h1 : ∀ i, x1 i = ((r1 i : ℝ) : EReal)) (b : Fin 16384)
    (hb : 0 ≤ (x2 (ix1 b)).toInt) (hb' : (x2 (ix1 b)).toInt < 1000) :
    nllArr x0 (padded x1) (column x2) (ix2 b (0 : Fin 1))
      = ((lse (Cert.ReferenceIdeal.Row.sc r0 r1 b)
          - Cert.ReferenceIdeal.Row.sc r0 r1 b ⟨(x2 (ix1 b)).toNat, Cert.Row.toNat_lt_of_range _ hb hb'⟩ : ℝ) : EReal) := by
  unfold nllArr
  have hr : rowOf (ix2 b (0 : Fin 1)) = b := Fin.ext rfl
  rw [hr, column_apply]
  refine Cert.Row.rowNll_eq _ (Cert.ReferenceIdeal.Row.sc r0 r1 b) (fun c => ?_) _ hb hb'
  show ∑ k : Fin 2048, x0 (ix2 b k) * padded x1 (ix2 (Fin.castLE (by decide : 1000 ≤ 1024) c) k) = _
  unfold Cert.ReferenceIdeal.Row.sc
  rw [← coe_sum]
  refine Finset.sum_congr rfl fun k _ => ?_
  rw [padded_apply, h0, h1, EReal.coe_mul]

/-- The kernel's mean and the reference's mean are one number. -/
theorem means_eq (h0 : ∀ i, x0 i = ((r0 i : ℝ) : EReal)) (h1 : ∀ i, x1 i = ((r1 i : ℝ) : EReal))
    (h2 : ∀ i, 0 ≤ (x2 i).toInt ∧ (x2 i).toInt < 1000) :
    Cert.ReferenceIdeal.ReadP.val_main_v7 (F := Ideal) x0 x1 x2 = meanOf (nllArr x0 (padded x1) (column x2)) := by
  funext i
  rw [Cert.ReferenceIdeal.ReadP.val_main_v7_apply, Cert.ReferenceIdeal.ReadP.val_main_v6_apply]
  unfold meanOf
  show _ = FloatOps.hostDivf (F := Ideal) (Host.reduceAdd (F := Ideal) (nllArr x0 (padded x1) (column x2)) _ _ _ i) _
  simp only [Host.reduceAdd, Ideal.hostReduceAdd_def]
  rw [Ideal.hostReduceAdd_total Cert.KernelIdeal.Gen.reducesTo_S16384x1_S_d0_1 (fun b => b.elim0)]
  have hs : ∑ j : Cert.ReferenceIdeal.S16384.Idx, Cert.ReferenceIdeal.ReadP.val_main_v5 (F := Ideal) x0 x1 x2 j
      = ∑ j : Cert.KernelIdeal.S16384x1.Idx, nllArr x0 (padded x1) (column x2) j := by
    rw [Cert.LibSumIdx.sum_idx1, sum_idx2]
    refine Finset.sum_congr rfl fun b _ => ?_
    rw [Fin.sum_univ_one]
    rw [Cert.ReferenceIdeal.Row.v5neg_apply x0 x1 x2 r0 r1 h0 h1 b (h2 _).1 (h2 _).2,
      kernel_entry x0 x1 x2 r0 r1 h0 h1 b (h2 _).1 (h2 _).2]
  rw [hs]
  rfl

end Cert.Bridge

end
-- ==== Proof.lean ====
/-
  The certificate: the Pallas cross-entropy kernel (a 16384 × 2048 feature array against a 1000 × 2048 table, padded
  to 1024 rows; per row the masked, shifted log-sum-exp minus the score of the row's class; the mean over the rows)
  and its jnp reference (einsum, log_softmax, take_along_axis, mean) compute one number on the extended reals, for
  finite features and table and class words in [0, 1000).

  The kernel shifts each row by max (row maximum, −1e30) and the reference by the row maximum; the log-sum-exp does
  not depend on the shift (`LogSumExp.log_sum_exp_shift`), so both rows are lse s − s t, and the two means sum the
  same 16384 reals from 0 and divide by 16384 (`Bridge.means_eq`). The three frames are the generated frame runs
  (the reference's: its run with the result dropped); the ideal pass rewrote nothing, so the idealization claim is
  trivial.
-/
import proofs.«400041_j45311904972892_3_alg».proof.Defs
import proofs.«400041_j45311904972892_3_alg».proof.Proof.Gen.Kernel
import proofs.«400041_j45311904972892_3_alg».proof.Proof.Gen.Kernel.Skeleton
import proofs.«400041_j45311904972892_3_alg».proof.Proof.Gen.Kernel.Launch
import proofs.«400041_j45311904972892_3_alg».proof.Proof.Gen.Kernel.Points
import proofs.«400041_j45311904972892_3_alg».proof.Proof.Gen.Kernel.Frame
import proofs.«400041_j45311904972892_3_alg».proof.Proof.Gen.KernelIdeal
import proofs.«400041_j45311904972892_3_alg».proof.Proof.Gen.KernelIdeal.Skeleton
import proofs.«400041_j45311904972892_3_alg».proof.Proof.Gen.KernelIdeal.Launch
import proofs.«400041_j45311904972892_3_alg».proof.Proof.Gen.KernelIdeal.Points
import proofs.«400041_j45311904972892_3_alg».proof.Proof.Gen.KernelIdeal.Frame
import proofs.«400041_j45311904972892_3_alg».proof.Proof.Gen.ReferenceIdeal
import proofs.«400041_j45311904972892_3_alg».proof.Proof.Gen.Pre_finite_inputs
import proofs.«400041_j45311904972892_3_alg».proof.Proof.RefRun
import proofs.«400041_j45311904972892_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with the mean over the rows of lse s − s t. -/
theorem algebraic : Cert.algebraic_KernelIdeal_ReferenceIdeal := by
  intro m ρ m' ρ' hpre hagree
  refine ⟨fun c => Cert.KernelIdeal.Host.meanOf
      (Cert.KernelIdeal.Arr.nllArr (Cert.KernelIdeal.Arr.xarr m c) (Cert.KernelIdeal.Arr.aarr m c) (Cert.KernelIdeal.Arr.tarr m c)),
    Cert.KernelIdeal.Host.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  obtain ⟨d0, d1, d2⟩ := Cert.PreDecode.decode _ _ _ (hpre c)
  choose r0 hr0 using d0
  choose r1 hr1 using d1
  show _ = Cert.KernelIdeal.Host.meanOf
    (Cert.KernelIdeal.Arr.nllArr (Cert.KernelIdeal.Arr.xarr m c) (Cert.KernelIdeal.Arr.aarr m c) (Cert.KernelIdeal.Arr.tarr m c))
  rw [Cert.KernelIdeal.Host.aarr_eq m c, Cert.KernelIdeal.Host.tarr_eq m c,
    show Cert.KernelIdeal.Arr.xarr m c = m ((c.tc : Thread Cert.KernelIdeal.nD Cert.KernelIdeal.τ).loc Cert.KernelIdeal.main_arg0)
      from Cert.KernelIdeal.Gen.V_main_arg0 m c]
  exact Cert.Bridge.means_eq _ _ _ r0 r1 hr0 hr1 d2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
